-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4032 : Shape := ⟨2, ![4096, 4032]⟩
abbrev S4096x64 : Shape := ⟨2, ![4096, 64]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4032 : S_.BroadcastsInDim S4096x4032 (![] : Fin 0 → Fin S4096x4032.rank)
  reducesTo_S4096x4032_S_d0_1 : S4096x4032.ReducesTo [0, 1] S_
  bcast_S_S4096x64 : S_.BroadcastsInDim S4096x64 (![] : Fin 0 → Fin S4096x64.rank)
  reducesTo_S4096x64_S_d0_1 : S4096x64.ReducesTo [0, 1] S_
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_v28 : IVec S_ 1) (main_v33 : IVec S4096 1) : IVec S_ 1 :=
  let main_c_12 : IVec S_ 1 := constantI S_ 1 1#1
  let main_v34 : IVec S_ 1 := (fun x v => Host.reduce IntOp.andi x v reducesTo_S4096_S_d0 h_S_) main_v33 main_c_12
  let main_v35 : IVec S_ 1 := andi main_v28 main_v34
  main_v35

def fn_part1 {F : FTy → Type} [FloatOps F] (main_arg4 : FVec F S4096 .f32) (main_arg5 : FVec F S4096x4032 .f32) (main_arg6 : IVec S4096 32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4032 .f32 := Host.absf main_arg5
  let main_cst_8 : FVec F S_ .f32 := constant S_ .f32 0x7F800000#32
  let main_v25 : FVec F S4096x4032 .f32 := broadcastInDim S4096x4032 ![] bcast_S_S4096x4032 main_cst_8
  let main_v26 : IVec S4096x4032 1 := cmpf .olt main_v24 main_v25
  let main_c_9 : IVec S_ 1 := constantI S_ 1 1#1
  let main_v27 : IVec S_ 1 := (fun x v => Host.reduce IntOp.andi x v reducesTo_S4096x4032_S_d0_1 h_S_) main_v26 main_c_9
  let main_v28 : IVec S_ 1 := andi main_v23 main_v27
  let main_c_10 : IVec S_ 32 := constantI S_ 32 4294963200#32
  let main_v29 : IVec S4096 32 := broadcastInDim S4096 ![] bcast_S_S4096 main_c_10
  let main_v30 : IVec S4096 1 := cmpi .sge main_arg6 main_v29
  let main_c_11 : IVec S_ 32 := constantI S_ 32 4096#32
  let main_v31 : IVec S4096 32 := broadcastInDim S4096 ![] bcast_S_S4096 main_c_11
  let main_v32 : IVec S4096 1 := cmpi .slt main_arg6 main_v31
  let main_v33 : IVec S4096 1 := andi main_v30 main_v32
  fn_part2 (F := F) main_v28 main_v33

def fn {F : FTy → Type} [FloatOps F] (main_arg0 : FVec F S4x2048x4096 .f32) (main_arg1 : FVec F S4096x4032 .f32) (main_arg2 : FVec F S4096x64 .f32) (main_arg3 : FVec F S4096x1 .f32) (main_arg4 : FVec F S4096 .f32) (main_arg5 : FVec F S4096x4032 .f32) (main_arg6 : IVec S4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4032 .f32 := Host.absf main_arg1
  let main_cst_0 : FVec F S_ .f32 := constant S_ .f32 0x7F800000#32
  let main_v5 : FVec F S4096x4032 .f32 := broadcastInDim S4096x4032 ![] bcast_S_S4096x4032 main_cst_0
  let main_v6 : IVec S4096x4032 1 := cmpf .olt main_v4 main_v5
  let main_c_1 : IVec S_ 1 := constantI S_ 1 1#1
  let main_v7 : IVec S_ 1 := (fun x v => Host.reduce IntOp.andi x v reducesTo_S4096x4032_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg4 main_arg5 main_arg6 main_v13 main_v16
-- ==== Kernel.lean ====
abbrev S4x2048x4096 : Shape := ⟨3, ![4, 2048, 4096]⟩
abbrev S4096x4032 : Shape := ⟨2, ![4096, 4032]⟩
abbrev S4096x64 : Shape := ⟨2, ![4096, 64]⟩
abbrev S4096x1 : Shape := ⟨2, ![4096, 1]⟩
abbrev S4096 : Shape := ⟨1, ![4096]⟩
abbrev S_ : Shape := ⟨0, ![]⟩
abbrev S4096x4096 : Shape := ⟨2, ![4096, 4096]⟩
abbrev S1 : Shape := ⟨1, ![1]⟩
abbrev S1x1 : Shape := ⟨2, ![1, 1]⟩
abbrev S8192x4096 : Shape := ⟨2, ![8192, 4096]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 56
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4032, .f32⟩
  | .hbm, ⟨2, _⟩ => ⟨S4096x64, .f32⟩
  | .hbm, ⟨3, _⟩ => ⟨S4096x1, .f32⟩
  | .hbm, ⟨4, _⟩ => ⟨S4096, .f32⟩
  | .hbm, ⟨5, _⟩ => ⟨S4096x4032, .f32⟩
  | .hbm, ⟨6, _⟩ => ⟨S4096, .i32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x4032, .f32⟩
  | .hbm, ⟨12, _⟩ => ⟨S4096x4032, .f32⟩
  | .hbm, ⟨13, _⟩ => ⟨S4096x4032, .f32⟩
  | .hbm, ⟨14, _⟩ => ⟨S4096x4032, .f32⟩
  | .hbm, ⟨15, _⟩ => ⟨S4096x1, .f32⟩
  | .hbm, ⟨16, _⟩ => ⟨S4096x4032, .f32⟩
  | .hbm, ⟨17, _⟩ => ⟨S4096x4032, .i1⟩
  | .hbm, ⟨18, _⟩ => ⟨S4096x1, .f32⟩
  | .hbm, ⟨19, _⟩ => ⟨S4096x4032, .f32⟩
  | .hbm, ⟨20, _⟩ => ⟨S4096x4032, .f32⟩
  | .hbm, ⟨21, _⟩ => ⟨S4096x4032, .f32⟩
  | .hbm, ⟨22, _⟩ => ⟨S4096x4032, .f32⟩
  | .hbm, ⟨23, _⟩ => ⟨S4096x4032, .i1⟩
  | .hbm, ⟨24, _⟩ => ⟨S4096x4032, .f32⟩
  | .hbm, ⟨25, _⟩ => ⟨S4096x4032, .f32⟩
  | .hbm, ⟨26, _⟩ => ⟨S4096x4096, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S1, .i32⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S1x1, .i32⟩
  | .hbm, ⟨40, _⟩ => ⟨S4096x1, .i32⟩
  | .hbm, ⟨41, _⟩ => ⟨S4096x1, .i1⟩
  | .hbm, ⟨42, _⟩ => ⟨S4096x1, .i1⟩
  | .hbm, ⟨43, _⟩ => ⟨S_, .i1⟩
  | .hbm, ⟨44, _⟩ => ⟨S4096, .i1⟩
  | .hbm, ⟨45, _⟩ => ⟨S4096x4096, .f32⟩
  | .hbm, ⟨46, _⟩ => ⟨S4096x4096, .i1⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .bf16⟩
  | .hbm, ⟨51, _⟩ => ⟨S8192x4096, .f32⟩
  | .hbm, ⟨52, _⟩ => ⟨S8192x4096, .bf16⟩
  | .hbm, ⟨53, _⟩ => ⟨S1x4096, .f32⟩
  | .hbm, ⟨54, _⟩ => ⟨S8192x4096, .f32⟩
  | .hbm, ⟨55, _⟩ => ⟨S4x2048x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_v14 : Ref sig .tc := ⟨.hbm, 46, rfl⟩
abbrev main_call2_cst : Ref sig .tc := ⟨.hbm, 47, rfl⟩
abbrev main_call2_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x1 : S_.BroadcastsInDim S4096x1 (![] : Fin 0 → Fin S4096x1.rank)
  bcast_S_S4096x4032 : S_.BroadcastsInDim S4096x4032 (![] : Fin 0 → Fin S4096x4032.rank)
  bcast_S4096x1_S4096x4032_0_1 : S4096x1.BroadcastsInDim S4096x4032 (![0, 1] : Fin 2 → Fin S4096x4032.rank)
  concatenates_S4096x4032_S4096x64_S4096x4096_d1 : Shape.Concatenates [S4096x4032, S4096x64] S4096x4096 1
  bcast_S_S4096 : S_.BroadcastsInDim S4096 (![] : Fin 0 → Fin S4096.rank)
  bcast_S4096_S4096x1_0 : S4096.BroadcastsInDim S4096x1 (![0] : Fin 1 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x4096_1 : S4096.BroadcastsInDim S4096x4096 (![1] : Fin 1 → Fin S4096x4096.rank)
  bcast_S_S4096x4096 : S_.BroadcastsInDim S4096x4096 (![] : Fin 0 → Fin S4096x4096.rank)
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S4096x4096_S4096x1_S4096x4096_0_1_n_n_1_1_40961_wf : GatherDims.WF S4096x4096 S4096x1 S4096x4096 [0] [1] [] [1] [] 1 ![4096, 1]
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v19) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4032 : Shape := ⟨2, ![4096, 4032]⟩
abbrev S4096x64 : Shape := ⟨2, ![4096, 64]⟩
abbrev S4096x1 : Shape := ⟨2, ![4096, 1]⟩
abbrev S4096 : Shape := ⟨1, ![4096]⟩
abbrev S_ : Shape := ⟨0, ![]⟩
abbrev S4096x4096 : Shape := ⟨2, ![4096, 4096]⟩
abbrev S1x1x4096 : Shape := ⟨3, ![1, 1, 4096]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4032, .f32⟩
  | .hbm, ⟨2, _⟩ => ⟨S4096x64, .f32⟩
  | .hbm, ⟨3, _⟩ => ⟨S4096x1, .f32⟩
  | .hbm, ⟨4, _⟩ => ⟨S4096, .f32⟩
  | .hbm, ⟨5, _⟩ => ⟨S4096x4032, .f32⟩
  | .hbm, ⟨6, _⟩ => ⟨S4096, .i32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x4032, .f32⟩
  | .hbm, ⟨12, _⟩ => ⟨S4096x4032, .f32⟩
  | .hbm, ⟨13, _⟩ => ⟨S4096x4032, .f32⟩
  | .hbm, ⟨14, _⟩ => ⟨S4096x4032, .f32⟩
  | .hbm, ⟨15, _⟩ => ⟨S4096x1, .f32⟩
  | .hbm, ⟨16, _⟩ => ⟨S4096x4032, .f32⟩
  | .hbm, ⟨17, _⟩ => ⟨S4096x4032, .i1⟩
  | .hbm, ⟨18, _⟩ => ⟨S4096x1, .f32⟩
  | .hbm, ⟨19, _⟩ => ⟨S4096x4032, .f32⟩
  | .hbm, ⟨20, _⟩ => ⟨S4096x4032, .f32⟩
  | .hbm, ⟨21, _⟩ => ⟨S4096x4032, .f32⟩
  | .hbm, ⟨22, _⟩ => ⟨S4096x4032, .f32⟩
  | .hbm, ⟨23, _⟩ => ⟨S4096x4032, .i1⟩
  | .hbm, ⟨24, _⟩ => ⟨S4096x4032, .f32⟩
  | .hbm, ⟨25, _⟩ => ⟨S4096x4032, .f32⟩
  | .hbm, ⟨26, _⟩ => ⟨S4096x4096, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x4096, .f32⟩
  | .hbm, ⟨36, _⟩ => ⟨S4x2048x4096, .f32⟩
  | .hbm, ⟨37, _⟩ => ⟨S1x1x4096, .f32⟩
  | .hbm, ⟨38, _⟩ => ⟨S4x2048x4096, .f32⟩
  | .hbm, ⟨39, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call1_v0 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S_S4096x1 : S_.BroadcastsInDim S4096x1 (![] : Fin 0 → Fin S4096x1.rank)
  bcast_S_S4096x4032 : S_.BroadcastsInDim S4096x4032 (![] : Fin 0 → Fin S4096x4032.rank)
  bcast_S4096x1_S4096x4032_0_1 : S4096x1.BroadcastsInDim S4096x4032 (![0, 1] : Fin 2 → Fin S4096x4032.rank)
  concatenates_S4096x4032_S4096x64_S4096x4096_d1 : Shape.Concatenates [S4096x4032, S4096x64] S4096x4096 1
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4096x4096_S4096x1_S4096x4096_0_1_n_n_1_1_40961_wf : GatherDims.WF S4096x4096 S4096x1 S4096x4096 [0] [1] [] [1] [] 1 ![4096, 1]
  dot_S4x2048x4096_S4096x4096_S4x2048x4096_2_1_01_0_n_n_wf : DotDims.WF S4x2048x4096 S4096x4096 S4x2048x4096 [2] [1] [0, 1] [0] [] []

variable [Facts₀]

def gather_S4096x4096_S4096x1_S4096x4096_0_1_n_n_1_1_40961 : GatherDims S4096x4096 S4096x1 S4096x4096 where
  offsetDims := [0]
  collapsedSliceDims := [1]
  operandBatchingDims := []
  startIndicesBatchingDims := []
  startIndexMap := [1]
  indexVectorDim := 1
  sliceSizes := ![4096, 1]
  wf := gather_S4096x4096_S4096x1_S4096x4096_0_1_n_n_1_1_40961_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The result both programs compute, as ONE function of three arrays: an input `x` of shape [4, 2048, 4096], a weight
  matrix `w` of shape [4096, 4096] (row `o` holds output feature `o`'s weights) and a bias `b` of shape [4096]:

      y[b, s, o] = (Σ_{k < 4096} x[b, s, k] · w[o, k]) + b[o]

  over the extended reals. The kernel reaches it in two halves of the contraction — a running block that starts at
  zero, takes the first 2048 products, then the last 2048 — so the one law this file proves is that the whole sum
  is `(0 + first half) + second half`. Addition of extended reals is a commutative monoid (`⊥ + ⊤ = ⊥` included),
  so the law needs no finiteness.
-/
import Idealize.ShloMosaic.PureOps.Ideal
import Idealize.ShloMosaic.Lib.ValueIdx
import Mathlib.Algebra.BigOperators.Fin

noncomputable section

namespace Cert.Linear

open Idealize.ShloMosaic Idealize.ShloMosaic.ValueIdx

/-- The input's shape, the weight matrix's, the bias's. -/
abbrev SX : Shape := ⟨3, ![4, 2048, 4096]⟩
abbrev SW : Shape := ⟨2, ![4096, 4096]⟩
abbrev SB : Shape := ⟨1, ![4096]⟩

/-- Position `k` of the first half of the contraction axis, and of the second half. -/
abbrev lo (k : Fin 2048) : Fin 4096 := ⟨k.val, by have := k.isLt; omega⟩
abbrev hi (k : Fin 2048) : Fin 4096 := ⟨2048 + k.val, by have := k.isLt; omega⟩

/-- `y[b, s, o] = (Σ_k x[b, s, k] · w[o, k]) + bias[o]`. -/
def G (x : SX.Idx → EReal) (w : SW.Idx → EReal) (b : SB.Idx → EReal) : SX.Idx → EReal :=
  fun i => (∑ k : Fin 4096, x (ix3 (i 0) (i 1) k) * w (ix2 (i 2) k)) + b (ix1 (i 2))

/-- A sum over 4096 positions is the sum over the first 2048 plus the sum over the last 2048, and a leading zero
    changes nothing. -/
theorem sum_halves (f : Fin 4096 → EReal) :
    (∑ k : Fin 4096, f k) = (0 + ∑ k : Fin 2048, f (lo k)) + ∑ k : Fin 2048, f (hi k) := by
  rw [zero_add]
  have h := Fin.sum_univ_add (M := EReal) (a := 2048) (b := 2048) f
  refine h.trans ?_
  congr 1

end Cert.Linear

end
-- ==== Proof.RefSide.lean ====
/-
  The reference side. The reference multiplies the input [4, 2048, 4096] with a [4096, 4096] weight matrix, contracting
  the input's last axis with the matrix's second, and adds the bias broadcast along the two leading axes. Read at an
  index (b, s, o) over the extended reals that is `(Σ_k x[b, s, k] · w[o, k]) + bias[o]`, the specification's `G`; the
  weight matrix — the reference's gathered matrix — stays one unopened array throughout.
-/
import proofs.«416216_j38482906972841_1_alg».proof.Defs
import proofs.«416216_j38482906972841_1_alg».proof.Proof.Gen.ReferenceIdeal.Read
import proofs.«416216_j38482906972841_1_alg».proof.Proof.Spec

noncomputable section

namespace Cert.ReferenceIdeal.RefValue

open Cert.ReferenceIdeal Cert.ReferenceIdeal.Gen Idealize.ShloMosaic Idealize.ShloMosaic.ValueIdx

/-- The reference's result is the specification's function of the input, the gathered weight matrix and the bias. -/
theorem result_eq (x0 : (⟨S4x2048x4096, .f32⟩ : BufTy).Contents (Elt Ideal)) (x1 : (⟨S4096x4032, .f32⟩ : BufTy).Contents (Elt Ideal))
    (x2 : (⟨S4096x64, .f32⟩ : BufTy).Contents (Elt Ideal)) (x3 : (⟨S4096x1, .f32⟩ : BufTy).Contents (Elt Ideal))
    (x4 : (⟨S4096, .f32⟩ : BufTy).Contents (Elt Ideal)) (x5 : (⟨S4096x4032, .f32⟩ : BufTy).Contents (Elt Ideal))
    (x6 : (⟨S4096, .i32⟩ : BufTy).Contents (Elt Ideal)) :
    Cert.ReferenceIdeal.Read.val_main_v26 (F := Ideal) x0 x1 x2 x3 x4 x5 x6
      = Cert.Linear.G x0 (Cert.ReferenceIdeal.Read.val_main_v22 (F := Ideal) x1 x2 x3 x5 x6) x4 := by
  funext i
  rw [Read.val_main_v26_apply, Read.val_main_v23_apply, Read.val_main_v25_apply, Read.val_main_v24_apply]
  -- the gathered weight matrix is one opaque matrix on both sides
  generalize Read.val_main_v22 (F := Ideal) x1 x2 x3 x5 x6 = w
  unfold Cert.Linear.G
  -- each index function of the stages is the literal constructor on the coordinates of i
  have hl : ∀ k : Fin 4096, Read.lidx_main_v23 i k = ix3 (i 0) (i 1) k := fun k =>
    funext fun a => Fin.ext (by match a with | ⟨0, _⟩ => rfl | ⟨1, _⟩ => rfl | ⟨2, _⟩ => rfl)
  have hr : ∀ k : Fin 4096, Read.ridx_main_v23 i k = ix2 (i 2) k := fun k =>
    funext fun a => Fin.ext (by match a with | ⟨0, _⟩ => rfl | ⟨1, _⟩ => rfl)
  have hb : Read.idx_main_v24 (Read.idx_main_v25 i) = ix1 (i 2) :=
    funext fun a => Fin.ext (by match a with | ⟨0, _⟩ => rfl)
  rw [hb, Ideal.addf_def]
  congr 1
  exact Finset.sum_congr rfl fun k _ => congrArg₂ (· * ·) (congrArg x0 (hl k)) (congrArg w (hr k))

end Cert.ReferenceIdeal.RefValue

end
-- ==== Proof.KernelWeights.lean ====
/-
  One weight matrix. Both programs build the same [4096, 4096] matrix on the host and take its columns at an int32
  index vector, wrapping a negative index by adding 4096. The reference gathers at the wrapped index (a start index
  outside the array is clamped). The kernel gathers the same way, then keeps the gathered entry only where the
  wrapped index lies in [0, 4095] and puts a not-a-number pattern elsewhere, and finally narrows to bf16 (the identity
  on extended reals). The precondition's last conjunct says every index word lies in [-4096, 4096) read signed; a
  word there, wrapped, lies in [0, 4095], so the kernel's test holds on every lane, its select keeps the gather
  everywhere, and what the region finds in its weight window is the reference's gathered matrix. The host operations
  are read one stretch at a time — up to the concatenation, the take, the narrowing — each over an arbitrary state of
  the buffers, so that no step compares more than its own stretch.
-/
import proofs.«416216_j38482906972841_1_alg».proof.Defs
import proofs.«416216_j38482906972841_1_alg».proof.Proof.Gen.KernelIdeal.Frame.Runs
import proofs.«416216_j38482906972841_1_alg».proof.Proof.Gen.ReferenceIdeal.Read
import proofs.«416216_j38482906972841_1_alg».proof.Proof.Gen.Pre_finite_inputs
import Idealize.ShloMosaic.Lib.StableHlo.Run
import Idealize.ShloMosaic.Lib.StableHlo.Predicate
import Idealize.ShloMosaic.Lib.ReduceAll
import Idealize.ShloMosaic.Lib.ValueIdx

noncomputable section

namespace Cert.KernelIdeal.Weights

open Cert.KernelIdeal Cert.KernelIdeal.Gen Idealize.ShloMosaic Idealize.ShloMosaic.TcCoe Idealize.SL.Sem

/-! ## Words -/

/-- A word in [-4096, 4096), wrapped by adding 4096 when negative, lies in [0, 4095]. -/
theorem wrap_range (w : BitVec 32) (h1 : (-4096 : Int) ≤ w.toInt) (h2 : w.toInt < 4096) :
    (0 : Int) ≤ (Scalar.select (IntOp.cmpi .slt w 0#32) (IntOp.addi w 4096#32) w).toInt
      ∧ (Scalar.select (IntOp.cmpi .slt w 0#32) (IntOp.addi w 4096#32) w).toInt ≤ 4095 := by
  have e1 := BitVec.toInt_eq_toNat_cond w
  have e2 := BitVec.toInt_eq_toNat_cond (w + 4096#32)
  have e3 : (w + 4096#32).toNat = (w.toNat + 4096) % 2 ^ 32 := by rw [BitVec.toNat_add]; rfl
  have hw := w.isLt
  have h0 : (0#32 : BitVec 32).toInt = 0 := by decide
  by_cases hc : IntOp.cmpi .slt w 0#32 = 1#1
  · rw [hc, ValueIdx.select_one]
    have hn : w.toInt < (0#32 : BitVec 32).toInt := IntOp.cmpi_slt.1 hc
    show (0 : Int) ≤ (w + 4096#32).toInt ∧ (w + 4096#32).toInt ≤ 4095
    split at e1 <;> split at e2 <;> omega
  · rw [ValueIdx.eq_zero_of_ne_one hc, ValueIdx.select_zero]
    have hn : ¬ w.toInt < (0#32 : BitVec 32).toInt := fun h => hc (IntOp.cmpi_slt.2 h)
    omega

/-! ## A reduction by "and" of an array of ones -/

/-- A left fold by "and" from 1 over a list whose every element is 1 is 1. -/
theorem foldl_andi_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_all_one f l fun n hn => h n (List.mem_cons_of_mem _ hn)

/-- A reduction by "and" from the constant 1 of an array that is 1 everywhere is 1 everywhere. -/
theorem reduce_andi_of_all_one {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_all_one x _ fun n _ => hx n

/-! ## The take law -/

/-- A gather whose result is kept where the start index lies in [0, 4095] (read signed) and replaced by another array
    elsewhere is the plain gather once every start index lies there: the mask is 1 everywhere. -/
theorem take_law {α : Type} (full : S4096x4096.Idx → α) (col : IVec S4096x1 32) (other : S4096x4096.Idx → α)
    (hcol : ∀ i, (0 : Int) ≤ (col i).toInt ∧ (col i).toInt ≤ 4095) :
    select (broadcastInDim S4096x4096 ![1] bcast_S4096_S4096x4096_1
        (Host.reduce IntOp.andi
          (andi (cmpi .sge col (broadcastInDim S4096x1 ![] bcast_S_S4096x1 (constantI S_ 32 0#32)))
            (cmpi .sle col (broadcastInDim S4096x1 ![0, 1] bcast_S1x1_S4096x1_0_1
              (broadcastInDim S1x1 ![1] bcast_S1_S1x1_1 (constantI S1 32 4095#32)))))
          (constantI S_ 1 1#1) reducesTo_S4096x1_S4096_d1 h_S_))
      (Host.gather gather_S4096x4096_S4096x1_S4096x4096_0_1_n_n_1_1_40961 full col) other
      = Host.gather gather_S4096x4096_S4096x1_S4096x4096_0_1_n_n_1_1_40961 full col := by
  funext i
  rw [ValueIdx.select_apply]
  have hmask : ∀ k : S4096x1.Idx,
      andi (cmpi .sge col (broadcastInDim S4096x1 ![] bcast_S_S4096x1 (constantI S_ 32 0#32)))
        (cmpi .sle col (broadcastInDim S4096x1 ![0, 1] bcast_S1x1_S4096x1_0_1
          (broadcastInDim S1x1 ![1] bcast_S1_S1x1_1 (constantI S1 32 4095#32)))) k = 1#1 := by
    intro k
    show IntOp.andi (IntOp.cmpi .sge (col k) 0#32) (IntOp.cmpi .sle (col k) 4095#32) = 1#1
    have h0 : (0#32 : BitVec 32).toInt = 0 := by decide
    have h4 : (4095#32 : BitVec 32).toInt = 4095 := by decide
    exact IntOp.andi_eq_one.2 ⟨IntOp.cmpi_sge.2 (by rw [h0]; exact (hcol k).1), IntOp.cmpi_sle.2 (by rw [h4]; exact (hcol k).2)⟩
  have hone : broadcastInDim S4096x4096 ![1] bcast_S4096_S4096x4096_1
        (Host.reduce IntOp.andi
          (andi (cmpi .sge col (broadcastInDim S4096x1 ![] bcast_S_S4096x1 (constantI S_ 32 0#32)))
            (cmpi .sle col (broadcastInDim S4096x1 ![0, 1] bcast_S1x1_S4096x1_0_1
              (broadcastInDim S1x1 ![1] bcast_S1_S1x1_1 (constantI S1 32 4095#32)))))
          (constantI S_ 1 1#1) reducesTo_S4096x1_S4096_d1 h_S_) i = 1#1 :=
    reduce_andi_of_all_one _ reducesTo_S4096x1_S4096_d1 h_S_ hmask _
  rw [hone, ValueIdx.select_one]

/-! ## The precondition, decoded -/

/-- The precondition at lane j: its last conjunct is an all-reduce by "and" of (index ≥ -4096) and (index < 4096),
    so the index word of every lane lies in [-4096, 4096), read signed. -/
theorem range_of_pre (m : (ℓ : Loc nD τ sig) → Buf (Elt Ideal) ℓ) (hpre : Cert.Pre_KernelIdeal m) (c : Dev nD) (j : S4096.Idx) :
    (-4096 : Int) ≤ (m ((c.tc : Thread nD τ).loc main_arg6) j).toInt ∧ (m ((c.tc : Thread nD τ).loc main_arg6) j).toInt < 4096 := by
  -- the scalar shape has one index
  haveI : Subsingleton Cert.Pre_finite_inputs.S_.Idx := ⟨fun _ _ => funext fun a => a.elim0⟩
  have e := congrFun (hpre c) ValueIdx.ix0
  unfold Cert.Pre_finite_inputs.fn Cert.Pre_finite_inputs.fn_part1 Cert.Pre_finite_inputs.fn_part2 at e
  obtain ⟨-, hall⟩ := IntOp.andi_eq_one.1 e
  have hj := Host.reduce_andi_all _ _ _ _ _ hall j
  obtain ⟨hge, hlt⟩ := IntOp.andi_eq_one.1 hj
  have h1 : (4294963200#32 : BitVec 32).toInt ≤ (m ((c.tc : Thread nD τ).loc main_arg6) j).toInt := IntOp.cmpi_sge.1 hge
  have h2 : (m ((c.tc : Thread nD τ).loc main_arg6) j).toInt < (4096#32 : BitVec 32).toInt := IntOp.cmpi_slt.1 hlt
  have e1 : (4294963200#32 : BitVec 32).toInt = -4096 := by decide
  have e2 : (4096#32 : BitVec 32).toInt = 4096 := by decide
  rw [e1] at h1; rw [e2] at h2
  exact ⟨h1, h2⟩

/-! ## The two gather operands, named once -/

/-- The full weight matrix, as the host operations before the region compute it from four of the argument arrays. -/
def fullOf (x1 : FVec Ideal S4096x4032 .f32) (x2 : FVec Ideal S4096x64 .f32) (x3 : FVec Ideal S4096x1 .f32)
    (x5 : FVec Ideal S4096x4032 .f32) : FVec Ideal S4096x4096 .f32 :=
  concatenate S4096x4096 1 [⟨S4096x4032, (select (cmpf (F := Ideal) .oge (x1) (broadcastInDim S4096x4032 ![0, 1] bcast_S4096x1_S4096x4032_0_1 (x3))) (broadcastInDim S4096x4032 ![0, 1] bcast_S4096x1_S4096x4032_0_1 (x3)) (select (cmpf (F := Ideal) .ole (x1) (broadcastInDim S4096x4032 ![0, 1] bcast_S4096x1_S4096x4032_0_1 (Host.negf (F := Ideal) (x3)))) (broadcastInDim S4096x4032 ![0, 1] bcast_S4096x1_S4096x4032_0_1 (Host.negf (F := Ideal) (x3))) (addf (F := Ideal) (x1) (mulf (F := Ideal) (mulf (F := Ideal) (x5) (broadcastInDim S4096x4032 ![] bcast_S_S4096x4032 (constant (F := Ideal) S_ .f32 0x3F000000#32))) (broadcastInDim S4096x4032 ![0, 1] bcast_S4096x1_S4096x4032_0_1 (Host.divf (F := Ideal) (x3) (broadcastInDim S4096x1 ![] bcast_S_S4096x1 (constant (F := Ideal) S_ .f32 0x40E00000#32))))))))⟩, ⟨S4096x64, (x2)⟩] concatenates_S4096x4032_S4096x64_S4096x4096_d1

/-- The column of wrapped start indices: a negative index has 4096 added. -/
def colOf (x6 : IVec S4096 32) : IVec S4096x1 32 :=
  broadcastInDim S4096x1 ![0] bcast_S4096_S4096x1_0 (select (cmpi .slt (x6) (broadcastInDim S4096 ![] bcast_S_S4096 (constantI S_ 32 0#32))) (addi (x6) (broadcastInDim S4096 ![] bcast_S_S4096 (constantI S_ 32 4096#32))) (x6))

/-- The full matrix is the reference's: the same chain of operations. -/
theorem fullOf_eq (x1 : FVec Ideal S4096x4032 .f32) (x2 : FVec Ideal S4096x64 .f32) (x3 : FVec Ideal S4096x1 .f32)
    (x5 : FVec Ideal S4096x4032 .f32) :
    fullOf x1 x2 x3 x5 = Cert.ReferenceIdeal.Read.val_main_v15 (F := Ideal) x1 x2 x3 x5 := rfl
/-- The wrapped index column is the reference's: the same chain of operations. -/
theorem colOf_eq (x6 : IVec S4096 32) :
    colOf x6 = Cert.ReferenceIdeal.Read.val_main_v21 (F := Ideal) x6 := rfl

/-- Every wrapped start index lies in [0, 4095] once every index word lies in [-4096, 4096). -/
theorem colOf_range (x6 : IVec S4096 32) (h : ∀ j, (-4096 : Int) ≤ (x6 j).toInt ∧ (x6 j).toInt < 4096) (i : S4096x1.Idx) :
    (0 : Int) ≤ (colOf x6 i).toInt ∧ (colOf x6 i).toInt ≤ 4095 :=
  wrap_range (x6 _) (h _).1 (h _).2

/-! ## The host operations before the region, run in three stretches

The region finds the buffers as the seven lists of host operations leave them. Run as one fold, the weight buffer's
contents are one very large term; cut after the operations that build the full matrix and again after the ones of the
take, each stretch is read over an arbitrary valuation and the three readings are chained. -/

/-- Two lists of operations run one after the other are their concatenation run as one. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => rw [List.cons_append, StableHlo.after_cons, StableHlo.after_cons, ih]

/-- The take with fill: the gather at the wrapped index column, kept where the wrapped index lies in [0, 4095] and
    replaced by the quiet-NaN pattern elsewhere. -/
def takeFill (full : FVec Ideal S4096x4096 .f32) (x6 : IVec S4096 32) : FVec Ideal S4096x4096 .f32 :=
  select (broadcastInDim S4096x4096 ![1] bcast_S4096_S4096x4096_1
      (Host.reduce IntOp.andi
        (andi (cmpi .sge (colOf x6) (broadcastInDim S4096x1 ![] bcast_S_S4096x1 (constantI S_ 32 0#32)))
          (cmpi .sle (colOf x6) (broadcastInDim S4096x1 ![0, 1] bcast_S1x1_S4096x1_0_1
            (broadcastInDim S1x1 ![1] bcast_S1_S1x1_1 (constantI S1 32 4095#32)))))
        (constantI S_ 1 1#1) reducesTo_S4096x1_S4096_d1 h_S_))
    (Host.gather gather_S4096x4096_S4096x1_S4096x4096_0_1_n_n_1_1_40961 full (colOf x6))
    (broadcastInDim S4096x4096 ![] bcast_S_S4096x4096 (constant (F := Ideal) S_ .f32 0x7FC00000#32))

set_option maxHeartbeats 1000000 in
/-- First stretch: the operations up to the concatenation leave the full matrix of four of the arguments. -/
theorem full_result (W : Valuation τ sig (Elt Ideal)) :
    StableHlo.after (hostOps0 (F := Ideal) ++ hostOps0_1 ++ hostOps0_2 ++ hostOps0_3 ++ hostOps0_4) W (Proc.devRef .tc main_v15)
      = fullOf (W (Proc.devRef .tc main_arg1)) (W (Proc.devRef .tc main_arg2)) (W (Proc.devRef .tc main_arg3))
          (W (Proc.devRef .tc main_arg5)) := by
  simp only [hostOps0, hostOps0_1, hostOps0_2, hostOps0_3, hostOps0_4, List.cons_append, List.nil_append]
  after_results_simp
  unfold fullOf
  rfl

/-- … and do not write the index vector. -/
theorem full_keeps_idx (W : Valuation τ sig (Elt Ideal)) :
    StableHlo.after (hostOps0 (F := Ideal) ++ hostOps0_1 ++ hostOps0_2 ++ hostOps0_3 ++ hostOps0_4) W (Proc.devRef .tc main_arg6)
      = W (Proc.devRef .tc main_arg6) := by
  simp only [hostOps0, hostOps0_1, hostOps0_2, hostOps0_3, hostOps0_4, List.cons_append, List.nil_append]
  after_results_simp

set_option maxHeartbeats 1000000 in
/-- Second stretch: the take's operations leave the take with fill of the full matrix and the index vector. -/
theorem take_result (W : Valuation τ sig (Elt Ideal)) :
    StableHlo.after (hostOps0_5 (F := Ideal)) W (Proc.devRef .tc main_v16)
      = takeFill (W (Proc.devRef .tc main_v15)) (W (Proc.devRef .tc main_arg6)) := by
  simp only [hostOps0_5]
  after_results_simp
  unfold takeFill colOf
  rfl

/-- Third stretch: the last operations narrow it into the weight buffer. -/
theorem narrow_result (W : Valuation τ sig (Elt Ideal)) :
    StableHlo.after (hostOps0_6 (F := Ideal)) W (Proc.devRef .tc main_v17)
      = truncf (F := Ideal) .bf16 (W (Proc.devRef .tc main_v16) : S4096x4096.Idx → EReal) bitsLt_bf16_f32 := by
  simp only [hostOps0_6]
  after_results_simp

/-- What the region finds in the weight buffer: the narrowing of the take with fill of the full matrix. -/
theorem V_main_v17_eq (m : (ℓ : Loc nD τ sig) → Buf (Elt Ideal) ℓ) (c : Dev nD) :
    V m c main_v17
      = truncf (F := Ideal) .bf16
          (takeFill (fullOf (m ((c.tc : Thread nD τ).loc main_arg1)) (m ((c.tc : Thread nD τ).loc main_arg2))
              (m ((c.tc : Thread nD τ).loc main_arg3)) (m ((c.tc : Thread nD τ).loc main_arg5)))
            (m ((c.tc : Thread nD τ).loc main_arg6)))
          bitsLt_bf16_f32 := by
  have hsplit : List.flatten [hostOps0 (F := Ideal), hostOps0_1, hostOps0_2, hostOps0_3, hostOps0_4, hostOps0_5, hostOps0_6]
      = ((hostOps0 ++ hostOps0_1 ++ hostOps0_2 ++ hostOps0_3 ++ hostOps0_4) ++ hostOps0_5) ++ hostOps0_6 := by
    simp only [List.flatten_cons, List.flatten_nil, List.append_nil, List.append_assoc]
  show StableHlo.after (List.flatten [hostOps0 (F := Ideal), hostOps0_1, hostOps0_2, hostOps0_3, hostOps0_4, hostOps0_5, hostOps0_6])
      (fun b => m (c, b)) (Proc.devRef .tc main_v17) = _
  rw [hsplit, after_append, after_append, narrow_result, take_result, full_result, full_keeps_idx]

/-- The weight matrix the kernel's region finds in its second window is the reference's gathered weight matrix. -/
theorem weights_eq (m : (ℓ : Loc nD τ sig) → Buf (Elt Ideal) ℓ) (hpre : Cert.Pre_KernelIdeal m) (c : Dev nD) :
    (V m c main_v17 : S4096x4096.Idx → EReal)
      = Cert.ReferenceIdeal.Read.val_main_v22 (F := Ideal)
          (m ((c.tc : Thread nD τ).loc main_arg1)) (m ((c.tc : Thread nD τ).loc main_arg2))
          (m ((c.tc : Thread nD τ).loc main_arg3)) (m ((c.tc : Thread nD τ).loc main_arg5))
          (m ((c.tc : Thread nD τ).loc main_arg6)) := by
  have hcol := colOf_range (m ((c.tc : Thread nD τ).loc main_arg6)) (range_of_pre m hpre c)
  rw [V_main_v17_eq m c]
  funext i
  rw [ValueIdx.truncf_apply]
  unfold takeFill
  rw [take_law _ _ _ hcol, fullOf_eq, colOf_eq]
  rfl

end Cert.KernelIdeal.Weights

end
-- ==== Proof.KernelPieces.lean ====
/-
  What one run of the kernel body leaves behind, as values. The body keeps a running [1024, 1024] block in a scratch
  buffer. At a grid point whose third coordinate is 0 it first stores the zero block there; at every point it adds
  to the running block the product of the point's input block with the transpose of the point's weight block; at a
  point whose third coordinate is the last it also stores running block + bias row into the output block.
  Each lemma below reads the stores of one control case back as the pure value of the body's loads:
  the first case leaves `update zero x w` in the scratch, the second leaves `update prev x w` there and
  `addBias (update prev x w) b` in the output block, where `update` and `addBias` are the body's two arithmetic
  terms (the printed payloads). Nothing here depends on the number format.
-/
import proofs.«416216_j38482906972841_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- Every store and load of the body starts at the buffer's origin. -/
theorem hz : (![0, 0] : Fin 2 → Nat) = fun _ => 0 := funext fun a => by fin_cases a <;> rfl

/-- First case (third grid coordinate 0): the scratch ends at the update of the ZERO block — the reset store is
    covered by the update's store, and the update read the reset block back. -/
theorem scratch_first (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x2048 .bf16) (x1 : Vec F S1024x2048 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x2048) hz]

/-- Second case (third grid coordinate 1): the scratch ends at the update of what the point before left in it. -/
theorem scratch_last (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread,
    View.ld_unit_zero (S := S1024x2048) hz, View.ld_unit_zero (S := S1024x1024) hz]

/-- Second case: the output block ends at that updated running block plus the bias row. -/
theorem out_last (c : Dev nD) (i : grid0.Coords) (arg3 : Memref sig .tc .vmem S1024x2048 .bf16) (harg3 : arg3.IsWhole) (arg4 : Memref sig .tc .vmem S1024x2048 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x2048 .bf16) (x1 : Vec F S1024x2048 .bf16) (x2 : Vec F S1x1024 .f32) (xs0 : Vec F S1024x1024 .f32) :
    out0_B_3 c i arg3 harg3 arg4 harg4 arg5 harg5 arg6 harg6 arg7 harg7 hc0 hc1 x0 x1 x2 xs0 = k0_pay3 (k0_pay2 xs0 x0 x1) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg5.read_unread, harg7.read_unread,
    View.readCov_unit_zero (S := S1024x1024) _ hz,
    View.ld_unit_zero (S := S1024x2048) hz, View.ld_unit_zero (S := S1024x1024) hz, View.ld_unit_zero (S := S1x1024) hz]

end Cert.KernelIdeal.Pieces

end
-- ==== Proof.Payloads.lean ====
/-
  The three values the kernel body stores, read at one position (p, q) of a [1024, 1024] block over the extended
  reals: the zero block; the running block plus the product of a [1024, 2048] input block with the transpose of a
  [1024, 2048] weight block (both contracted along their second axis: 2048 products per entry); the running block
  plus the bias row. Shape casts of a shape to itself drop out.
-/
import proofs.«416216_j38482906972841_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-! ## The operand indices of the block product, one axis at a time

The product contracts axis 1 of both operands: at the output index `i` and the contraction position `c` the left
operand is read at row `i 0`, the right operand at row `i 1`, and both at column `c`. -/

/-- The left operand's row is the output's row. -/
theorem mm_lhs_row (i : S1024x1024.Idx) (c : dot_S1024x2048_S1024x2048_S1024x1024_1_1_0_0_n_n.contr.Idx) :
    (dot_S1024x2048_S1024x2048_S1024x1024_1_1_0_0_n_n.lhsIdx i c 0).val = (i 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl

/-- The left operand's column is the contraction position. -/
theorem mm_lhs_col (i : S1024x1024.Idx) (c : dot_S1024x2048_S1024x2048_S1024x1024_1_1_0_0_n_n.contr.Idx) :
    (dot_S1024x2048_S1024x2048_S1024x1024_1_1_0_0_n_n.lhsIdx i c 1).val = (c ⟨0, by decide⟩).val :=
  dot_S1024x2048_S1024x2048_S1024x1024_1_1_0_0_n_n.lhsIdx_val_of_single rfl i c

/-- The right operand's row is the output's column. -/
theorem mm_rhs_row (i : S1024x1024.Idx) (c : dot_S1024x2048_S1024x2048_S1024x1024_1_1_0_0_n_n.contr.Idx) :
    (dot_S1024x2048_S1024x2048_S1024x1024_1_1_0_0_n_n.rhsIdx i c 0).val = (i 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl

/-- The right operand's column is the contraction position. -/
theorem mm_rhs_col (i : S1024x1024.Idx) (c : dot_S1024x2048_S1024x2048_S1024x1024_1_1_0_0_n_n.contr.Idx) :
    (dot_S1024x2048_S1024x2048_S1024x1024_1_1_0_0_n_n.rhsIdx i c 1).val = (c ⟨0, by decide⟩).val :=
  dot_S1024x2048_S1024x2048_S1024x1024_1_1_0_0_n_n.rhsIdx_val_of_single rfl i c

/-- The block product into the zero block, at row `p` and column `q`: the sum over the 2048 contraction positions of
    the products of row `p` of the left operand with row `q` of the right operand. -/
theorem mm_apply (a b : FVec Ideal S1024x2048 .bf16) (p q : Fin 1024) :
    matmul (F := Ideal) dot_S1024x2048_S1024x2048_S1024x1024_1_1_0_0_n_n none a b
        (constant (F := Ideal) S1024x1024 .f32 0x00000000#32) (ix2 p q)
      = ∑ k : Fin 2048, a (ix2 p k) * b (ix2 q k) := by
  simp only [matmul]
  rw [Ideal.matmul_constant_zero_apply,
    ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have hl : dot_S1024x2048_S1024x2048_S1024x1024_1_1_0_0_n_n.lhsIdx (ix2 p q)
      ((contrEquiv1 dot_S1024x2048_S1024x2048_S1024x1024_1_1_0_0_n_n 2048 rfl rfl).symm k) = ix2 p k :=
    funext fun ax => Fin.ext (by
      match ax with
      | ⟨0, _⟩ => exact mm_lhs_row _ _
      | ⟨1, _⟩ => exact (mm_lhs_col _ _).trans hk)
  have hr : dot_S1024x2048_S1024x2048_S1024x1024_1_1_0_0_n_n.rhsIdx (ix2 p q)
      ((contrEquiv1 dot_S1024x2048_S1024x2048_S1024x1024_1_1_0_0_n_n 2048 rfl rfl).symm k) = ix2 q k :=
    funext fun ax => Fin.ext (by
      match ax with
      | ⟨0, _⟩ => exact mm_rhs_row _ _
      | ⟨1, _⟩ => exact (mm_rhs_col _ _).trans hk)
  rw [hl, hr]

/-- The block the reset stores is zero everywhere. -/
theorem pay1_apply (p q : Fin 1024) : k0_pay1 (F := Ideal) (ix2 p q) = 0 := by
  unfold k0_pay1
  rw [shapeCast_self]
  exact Ideal.ofBits_zero_f32

/-- The accumulation step: the running block plus, at row `p` and column `q`, the products of row `p` of the
    input block with row `q` of the weight block over the block's 2048 contraction positions. -/
theorem pay2_apply (v3 : Vec Ideal S1024x1024 .f32) (v4 v6 : Vec Ideal S1024x2048 .bf16) (p q : Fin 1024) :
    k0_pay2 (F := Ideal) v3 v4 v6 (ix2 p q) = v3 (ix2 p q) + ∑ k : Fin 2048, v4 (ix2 p k) * v6 (ix2 q k) := by
  unfold k0_pay2
  rw [shapeCast_self, shapeCast_self, shapeCast_self]
  exact congrArg (v3 (ix2 p q) + ·) (mm_apply v4 v6 p q)

/-- The last step adds the bias row to every row of the running block. -/
theorem pay3_apply (v16 : Vec Ideal S1024x1024 .f32) (v17 : Vec Ideal S1x1024 .f32) (p q : Fin 1024) :
    k0_pay3 (F := Ideal) v16 v17 (ix2 p q) = v16 (ix2 p q) + v17 (ix2 (0 : Fin 1) q) := by
  unfold k0_pay3
  rw [shapeCast_self]
  exact congrArg (v16 (ix2 p q) + ·) (broadcastTo_1b_ab_apply v17 broadcasts_S1x1024_S1024x1024 p q)

end Cert.KernelIdeal.Payloads

end
-- ==== Proof.KernelBlocks.lean ====
/-
  From blocks to the array. The region walks an 8 × 4 × 2 grid; point `t` is (row block t / 8, column block
  t / 2 mod 4, contraction half t mod 2). At an even point the body resets its running block and takes the first half
  of the contraction; at the following odd point — same row and column block — it takes the second half, adds the
  bias row and stores the output block, which is then written back. So what an odd point `t` writes back is block
  `t` of ONE array function `Y` of the three arrays the region stages, and the 32 odd points' blocks tile the
  [8192, 4096] output array: after the region the array IS `Y`.
-/
import proofs.«416216_j38482906972841_1_alg».proof.Proof.Gen.KernelIdeal.Frame
import proofs.«416216_j38482906972841_1_alg».proof.Proof.KernelPieces
import proofs.«416216_j38482906972841_1_alg».proof.Proof.Payloads
import proofs.«416216_j38482906972841_1_alg».proof.Proof.Spec
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.Linear (lo hi)

variable (m : (ℓ : Loc nD τ sig) → Buf (Elt Ideal) ℓ)

/-- The three arrays the region's input windows stage, as it finds them: the flattened input, the weight matrix,
    the bias row. -/
abbrev X (c : Dev nD) : S8192x4096.Idx → EReal := V m c main_v19
abbrev W (c : Dev nD) : S4096x4096.Idx → EReal := V m c main_v17
abbrev B (c : Dev nD) : S1x4096.Idx → EReal := V m c main_v20

/-- The blocks of those three arrays that grid point `t` stages: 1024 rows by 2048 contraction positions of the
    input and of the weights, 1024 columns of the bias row. -/
abbrev xblk (c : Dev nD) (t : Fin cfg0.N) : Vec Ideal S1024x2048 .bf16 := iblk m c 0 t
abbrev wblk (c : Dev nD) (t : Fin cfg0.N) : Vec Ideal S1024x2048 .bf16 := iblk m c 1 t
abbrev bblk (c : Dev nD) (t : Fin cfg0.N) : Vec Ideal S1x1024 .f32 := iblk m c 2 t

/-- What the region's output array ends holding: at row `r` and column `n`, the zero the running block starts
    from, plus the products over the first half of the contraction axis, plus those over the second half, plus
    the bias at `n`. -/
def Y (X : S8192x4096.Idx → EReal) (W : S4096x4096.Idx → EReal) (B : S1x4096.Idx → EReal) : S8192x4096.Idx → EReal :=
  fun j => ((0 + ∑ k : Fin 2048, X (ix2 (j 0) (lo k)) * W (ix2 (j 1) (lo k)))
    + ∑ k : Fin 2048, X (ix2 (j 0) (hi k)) * W (ix2 (j 1) (hi k))) + B (ix2 (0 : Fin 1) (j 1))

/-- Grid point `t` of the 8 × 4 × 2 grid is (t / 8, t / 2 mod 4, t mod 2); each window's block index at `t` in
    those terms: the input's (row block, contraction half), the weights' (column block, contraction half), the
    bias's (0, column block), the output's (row block, column block). -/
theorem idx_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-- The input block at point `t`, entry (p, k), is the input array at row `1024·(t/8) + p`, column
    `2048·(t mod 2) + k`. -/
theorem xblk_at (c : Dev nD) (t : Fin cfg0.N) (p : Fin 1024) (k : Fin 2048) (r : Fin 8192) (kk : Fin 4096)
    (hr : r.val = 1024 * (t.val / 8) + p.val) (hk : kk.val = 2048 * (t.val % 2) + k.val) :
    xblk m c t (ix2 p k) = X m c (ix2 r kk) := by
  obtain ⟨e0, e1, -⟩ := idx_facts t
  unfold xblk iblk
  rw [View.read_apply]
  show V m c main_v19 _ = V m c main_v19 _
  congr 1
  funext a
  apply Fin.ext
  match a with
  | ⟨0, _⟩ => show win0_0.index t (0 : Fin 2) * 1024 + 1 * p.val = r.val; omega
  | ⟨1, _⟩ => show win0_0.index t (1 : Fin 2) * 2048 + 1 * k.val = kk.val; omega

/-- The weight block at point `t`, entry (q, k), is the weight matrix at row `1024·(t/2 mod 4) + q`, column
    `2048·(t mod 2) + k`. -/
theorem wblk_at (c : Dev nD) (t : Fin cfg0.N) (q : Fin 1024) (k : Fin 2048) (n : Fin 4096) (kk : Fin 4096)
    (hn : n.val = 1024 * (t.val / 2 % 4) + q.val) (hk : kk.val = 2048 * (t.val % 2) + k.val) :
    wblk m c t (ix2 q k) = W m c (ix2 n kk) := by
  obtain ⟨-, -, e0, e1, -⟩ := idx_facts t
  unfold wblk iblk
  rw [View.read_apply]
  show V m c main_v17 _ = V m c main_v17 _
  congr 1
  funext a
  apply Fin.ext
  match a with
  | ⟨0, _⟩ => show win0_1.index t (0 : Fin 2) * 1024 + 1 * q.val = n.val; omega
  | ⟨1, _⟩ => show win0_1.index t (1 : Fin 2) * 2048 + 1 * k.val = kk.val; omega

/-- The bias block at point `t`, entry (0, q), is the bias row at column `1024·(t/2 mod 4) + q`. -/
theorem bblk_at (c : Dev nD) (t : Fin cfg0.N) (q : Fin 1024) (n : Fin 4096)
    (hn : n.val = 1024 * (t.val / 2 % 4) + q.val) :
    bblk m c t (ix2 (0 : Fin 1) q) = B m c (ix2 (0 : Fin 1) n) := by
  obtain ⟨-, -, -, -, e0, e1, -⟩ := idx_facts t
  unfold bblk iblk
  rw [View.read_apply]
  show V m c main_v20 _ = V m c main_v20 _
  congr 1
  funext a
  apply Fin.ext
  match a with
  | ⟨0, _⟩ => show win0_2.index t (0 : Fin 2) * 1 + 1 * 0 = 0; omega
  | ⟨1, _⟩ => show win0_2.index t (1 : Fin 2) * 1024 + 1 * q.val = n.val; omega

/-- Two consecutive runs of the body — the first from the zero block over blocks (xa, wa), the second over
    (xb, wb) with the bias row bb added — leave at (p, q): zero, plus row p of xa against row q of wa, plus row p
    of xb against row q of wb, plus bb at q. -/
theorem two_steps (xa wa xb wb : Vec Ideal S1024x2048 .bf16) (bb : Vec Ideal S1x1024 .f32) (p q : Fin 1024) :
    k0_pay3 (F := Ideal) (k0_pay2 (k0_pay2 (k0_pay1 (F := Ideal)) xa wa) xb wb) bb (ix2 p q)
      = ((0 + ∑ k : Fin 2048, xa (ix2 p k) * wa (ix2 q k)) + ∑ k : Fin 2048, xb (ix2 p k) * wb (ix2 q k))
        + bb (ix2 (0 : Fin 1) q) := by
  rw [Payloads.pay3_apply, Payloads.pay2_apply, Payloads.pay2_apply, Payloads.pay1_apply]

/-- WHAT A FLUSHING POINT WRITES BACK. The output is written back at the odd points (third coordinate 1); such a
    point `t` follows the even point `t - 1` of the same row and column block, which reset the running block and
    took the first half of the contraction; `t` took the second half and added the bias. So the block written
    back is block `t` of `Y`. -/
theorem flushed_eq (c : Dev nD) (t : Fin cfg0.N) (hf : (cfg0.win 3).flush t = true) :
    (dats m 0 c).flushed 3 t = ((cfg0.win 3).blk t).view.read (Elt Ideal) (Y (X m c) (W m c) (B m c)) := by
  have h1 : t.val % 2 = 1 := (flush0_3 t).mp hf
  have h0 : ¬t.val % 2 = 0 := by omega
  have hN : t.val < 64 := lt_of_lt_of_eq t.isLt (show cfg0.N = 64 from N_0)
  have hlt : t.val - 1 < cfg0.N := Nat.lt_of_le_of_lt (Nat.sub_le _ _) t.isLt
  have hp0 : (⟨t.val - 1, hlt⟩ : Fin cfg0.N).val % 2 = 0 := by show (t.val - 1) % 2 = 0; omega
  have hp1 : ¬(⟨t.val - 1, hlt⟩ : Fin cfg0.N).val % 2 = 1 := by show ¬(t.val - 1) % 2 = 1; omega
  show (cfg0.win 3).cut (grid0.coords t) ((dats m 0 c).after 3 t) = _
  rw [after0_3, outsAt0_B m c t h0 h1]
  dsimp only
  rw [Pieces.out_last]
  rw [show outsAt0 m c (t.val - 1) hlt = _ from outsAt0_A m c ⟨t.val - 1, hlt⟩ hp0 hp1]
  dsimp only
  rw [Pieces.scratch_first]
  refine funext fun (y : S1024x1024.Idx) => ?_
  obtain ⟨p, q, rfl⟩ : ∃ (p q : Fin 1024), y = ix2 p q := ⟨y 0, y 1, eq_ix2 y⟩
  have hp : p.val < 1024 := p.isLt
  have hq : q.val < 1024 := q.isLt
  refine (two_steps (xblk m c ⟨t.val - 1, hlt⟩) (wblk m c ⟨t.val - 1, hlt⟩) (xblk m c t) (wblk m c t)
    (bblk m c t) p q).trans ?_
  change _ = Y (X m c) (W m c) (B m c) (((cfg0.win 3).blk t).view.emb (ix2 p q))
  -- entry (p, q) of block t sits at row r = 1024·(t/8) + p and column n = 1024·(t/2 mod 4) + q of the array
  obtain ⟨r, hr⟩ : ∃ r : Fin 8192, r.val = 1024 * (t.val / 8) + p.val := ⟨⟨1024 * (t.val / 8) + p.val, by omega⟩, rfl⟩
  obtain ⟨n, hn⟩ : ∃ n : Fin 4096, n.val = 1024 * (t.val / 2 % 4) + q.val :=
    ⟨⟨1024 * (t.val / 2 % 4) + q.val, by omega⟩, rfl⟩
  obtain ⟨-, -, -, -, -, -, e0, e1⟩ := idx_facts t
  have hj : ((cfg0.win 3).blk t).view.emb (ix2 p q) = ix2 r n := by
    funext a
    apply Fin.ext
    match a with
    | ⟨0, _⟩ => show win0_3.index t (0 : Fin 2) * 1024 + 1 * p.val = r.val; omega
    | ⟨1, _⟩ => show win0_3.index t (1 : Fin 2) * 1024 + 1 * q.val = n.val; omega
  rw [hj]
  -- the point before read the first half of row r and of weight row n, this point the second half
  have hA : (∑ k : Fin 2048, xblk m c ⟨t.val - 1, hlt⟩ (ix2 p k) * wblk m c ⟨t.val - 1, hlt⟩ (ix2 q k))
      = ∑ k : Fin 2048, X m c (ix2 r (lo k)) * W m c (ix2 n (lo k)) :=
    Finset.sum_congr rfl fun k _ => by
      rw [xblk_at m c ⟨t.val - 1, hlt⟩ p k r (lo k) (by show r.val = 1024 * ((t.val - 1) / 8) + p.val; omega)
          (by show k.val = 2048 * ((t.val - 1) % 2) + k.val; omega),
        wblk_at m c ⟨t.val - 1, hlt⟩ q k n (lo k) (by show n.val = 1024 * ((t.val - 1) / 2 % 4) + q.val; omega)
          (by show k.val = 2048 * ((t.val - 1) % 2) + k.val; omega)]
  have hB : (∑ k : Fin 2048, xblk m c t (ix2 p k) * wblk m c t (ix2 q k))
      = ∑ k : Fin 2048, X m c (ix2 r (hi k)) * W m c (ix2 n (hi k)) :=
    Finset.sum_congr rfl fun k _ => by
      rw [xblk_at m c t p k r (hi k) hr (by show 2048 + k.val = 2048 * (t.val % 2) + k.val; omega),
        wblk_at m c t q k n (hi k) hn (by show 2048 + k.val = 2048 * (t.val % 2) + k.val; omega)]
  rw [hA, hB, bblk_at m c t q n hn]
  rfl

/-- An index of the output array is in point `t`'s block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v21).slice (win0_3.rect t)).set ↔ _
  rw [View.set_slice_whole, Rect.mem_set_unit]
  exact Iff.rfl

/-- Every index (row, column) of the output array is in the block of a flushing point: the odd point of row block
    `row / 1024` and column block `column / 1024`. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨tv, htv⟩ : ∃ tv : ℕ, tv = ((i 0).val / 1024 * 4 + (i 1).val / 1024) * 2 + 1 := ⟨_, rfl⟩
  have hlt : tv < cfg0.N := by rw [show cfg0.N = 64 from N_0]; omega
  refine ⟨⟨tv, hlt⟩, (flush0_3 ⟨tv, hlt⟩).mpr (by show tv % 2 = 1; omega), ?_⟩
  obtain ⟨-, -, -, -, -, -, e0, e1⟩ := idx_facts ⟨tv, hlt⟩
  have e0' : win0_3.index ⟨tv, hlt⟩ (0 : Fin 2) = tv / 8 := e0
  have e1' : win0_3.index ⟨tv, hlt⟩ (1 : Fin 2) = tv / 2 % 4 := e1
  rw [mem_blk]
  intro a
  match a with
  | ⟨0, _⟩ =>
    show win0_3.index ⟨tv, hlt⟩ (0 : Fin 2) * 1024 ≤ (i 0).val ∧ (i 0).val < win0_3.index ⟨tv, hlt⟩ (0 : Fin 2) * 1024 + 1024
    rw [e0']; omega
  | ⟨1, _⟩ =>
    show win0_3.index ⟨tv, hlt⟩ (1 : Fin 2) * 1024 ≤ (i 1).val ∧ (i 1).val < win0_3.index ⟨tv, hlt⟩ (1 : Fin 2) * 1024 + 1024
    rw [e1']; omega

/-- THE OUTPUT ARRAY AFTER THE REGION is `Y` of the three arrays the region found. -/
theorem final (c : Dev nD) : (dats m 0 c).arrAt 3 cfg0.N = Y (X m c) (W m c) (B m c) :=
  (dats m 0 c).arrAt_eq_of_cover 3 (Y (X m c) (W m c) (B m c)) (fun t hf => flushed_eq m c t hf) cover

end Cert.KernelIdeal.Blocks

end
-- ==== Proof.HostWindows.lean ====
/-
  The host operations around the tiled region that only re-lay data: before it the input [4, 2048, 4096] is flattened
  to [8192, 4096] and narrowed to bf16 (the identity on extended reals) and the bias [4096] becomes one row [1, 4096];
  after it the [8192, 4096] result is un-flattened to [4, 2048, 4096]. A reshape keeps row-major positions, so flat
  row `2048·b + s` is row (b, s).
-/
import proofs.«416216_j38482906972841_1_alg».proof.Proof.Gen.KernelIdeal.Frame.Runs
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostWindows

open Cert.KernelIdeal Cert.KernelIdeal.Gen Idealize.ShloMosaic Idealize.ShloMosaic.TcCoe Idealize.SL.Sem
open Idealize.ShloMosaic.ValueIdx

/-! ## The three reshapes read at an index

A reshape keeps every entry's row-major position. Between `[4, 2048, 4096]` and `[8192, 4096]` the position of
`(b, s, k)` is `(b·2048 + s)·4096 + k`, the position of `(2048·b + s, k)`; between `[4096]` and `[1, 4096]` the
position of `n` is `0·4096 + n`, the position of `(0, n)`. -/

/-- Flattening the two leading axes: row `2048·b + s` of the flat array is row `(b, s)` of the operand. -/
theorem flatten_apply (x : S4x2048x4096.Idx → EReal) (b : Fin 4) (s : Fin 2048) (k : Fin 4096) :
    shapeCast S8192x4096 x shapeCasts_S4x2048x4096_S8192x4096
        (ix2 ⟨2048 * b.val + s.val, by have := b.isLt; have := s.isLt; omega⟩ k)
      = x (ix3 b s k) :=
  shapeCast_apply x _ _ _ (by
    rw [Shape.rowMajor_val_two, Shape.rowMajor_val_three]
    show (b.val * 2048 + s.val) * 4096 + k.val = (2048 * b.val + s.val) * 4096 + k.val
    omega)

/-- A vector as a one-row matrix: entry `(0, n)` is entry `n` of the operand. -/
theorem row_apply (x : S4096.Idx → EReal) (n : Fin 4096) :
    shapeCast S1x4096 x shapeCasts_S4096_S1x4096 (ix2 (0 : Fin 1) n) = x (ix1 n) :=
  shapeCast_apply x _ _ _ (by
    rw [Shape.rowMajor_val_two, Shape.rowMajor_val_one]
    show n.val = 0 * 4096 + n.val
    omega)

/-! ## The two windows as whole arrays

Of the host operations before the region only the last four touch these buffers: the input is reshaped and then narrowed
to bf16, the bias is reshaped. Every earlier operation writes another buffer and leaves the launch contents of the
input and of the bias as they were. -/

/-- The first window, whole: the input reshaped to 8192 rows, then narrowed to bf16. -/
theorem v19_eq (m : (ℓ : Loc nD τ sig) → Buf (Elt Ideal) ℓ) (c : Dev nD) :
    (V m c main_v19 : S8192x4096.Idx → EReal)
      = truncf (F := Ideal) .bf16
          (shapeCast S8192x4096 (m ((c.tc : Thread nD τ).loc main_arg0) : S4x2048x4096.Idx → EReal)
            shapeCasts_S4x2048x4096_S8192x4096) bitsLt_bf16_f32 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-- The third window, whole: the bias reshaped to one row. -/
theorem v20_eq (m : (ℓ : Loc nD τ sig) → Buf (Elt Ideal) ℓ) (c : Dev nD) :
    (V m c main_v20 : S1x4096.Idx → EReal)
      = shapeCast S1x4096 (m ((c.tc : Thread nD τ).loc main_arg4) : S4096.Idx → EReal) shapeCasts_S4096_S1x4096 := by
  dsimp only [V, V0]
  simp only [hostOps0, hostOps0_1, hostOps0_2, hostOps0_3, hostOps0_4, hostOps0_5, hostOps0_6, List.flatten_cons,
    List.flatten_nil, List.append_nil, List.cons_append, List.nil_append]
  after_results
  rfl

/-! ## The windows and the final reshape at an index -/

/-- The region's first window is the input flattened to 8192 rows: row `2048·b + s` is the input's row `(b, s)`. -/
theorem x_apply (m : (ℓ : Loc nD τ sig) → Buf (Elt Ideal) ℓ) (c : Dev nD) (b : Fin 4) (s : Fin 2048) (k : Fin 4096) :
    (V m c main_v19 : S8192x4096.Idx → EReal) (ix2 ⟨2048 * b.val + s.val, by have := b.isLt; have := s.isLt; omega⟩ k)
      = (m ((c.tc : Thread nD τ).loc main_arg0) : S4x2048x4096.Idx → EReal) (ix3 b s k) := by
  rw [v19_eq m c, truncf_apply]
  exact flatten_apply _ b s k

/-- The region's third window is the bias as one row. -/
theorem bias_apply (m : (ℓ : Loc nD τ sig) → Buf (Elt Ideal) ℓ) (c : Dev nD) (n : Fin 4096) :
    (V m c main_v20 : S1x4096.Idx → EReal) (ix2 (0 : Fin 1) n)
      = (m ((c.tc : Thread nD τ).loc main_arg4) : S4096.Idx → EReal) (ix1 n) := by
  rw [v20_eq m c]
  exact row_apply _ n

/-- Un-flattening the 8192 rows back to [4, 2048]: entry `(b, s, o)` is row `2048·b + s`, column `o`. -/
theorem unflatten_apply (y : S8192x4096.Idx → EReal) (b : Fin 4) (s : Fin 2048) (o : Fin 4096) :
    shapeCast S4x2048x4096 y shapeCasts_S8192x4096_S4x2048x4096 (ix3 b s o)
      = y (ix2 ⟨2048 * b.val + s.val, by have := b.isLt; have := s.isLt; omega⟩ o) :=
  shapeCast_apply y _ _ _ (by
    rw [Shape.rowMajor_val_two, Shape.rowMajor_val_three]
    show (2048 * b.val + s.val) * 4096 + o.val = (b.val * 2048 + s.val) * 4096 + o.val
    omega)

end Cert.KernelIdeal.HostWindows

end
-- ==== Proof.KernelRun.lean ====
/-
  The kernel's run, read as a value: the region leaves the array `Y` (KernelBlocks), the one host operation after
  it un-flattens `Y` into the result, and entry (b, s, o) of that is the specification's
  `(Σ_{k<4096} x[b, s, k] · W[o, k]) + bias[o]` of the input, the weight matrix the region found and the bias —
  the two half sums with their leading zero being the whole sum. Every argument array ends as launched.
-/
import proofs.«416216_j38482906972841_1_alg».proof.Defs
import proofs.«416216_j38482906972841_1_alg».proof.Proof.Gen.KernelIdeal.Frame
import proofs.«416216_j38482906972841_1_alg».proof.Proof.KernelBlocks
import proofs.«416216_j38482906972841_1_alg».proof.Proof.HostWindows
import proofs.«416216_j38482906972841_1_alg».proof.Proof.Spec
import Idealize.ShloMosaic.Lib.StableHlo.Run
import Idealize.ShloMosaic.Lib.Pipeline.Value
import Idealize.ShloMosaic.Lib.ValueIdx

noncomputable section

namespace Cert.KernelIdeal.RunValue

open Cert.KernelIdeal Cert.KernelIdeal.Gen Idealize.ShloMosaic Idealize.ShloMosaic.TcCoe Idealize.SL.Sem
open Idealize.ShloMosaic.ValueIdx
open Cert.Linear (lo hi)

variable (m : (ℓ : Loc nD τ sig) → Buf (Elt Ideal) ℓ) (ρ : Dev nD → PrngReg)

/-- After the region the program's one remaining operation un-flattens the region's output array: the result
    buffer holds that reshape of the array the region left. -/
theorem tail_eq (c : Dev nD) :
    Pipeline.afterTail₀ cfgs (dats m) 0 (V0 m) [hostOps1] c main_v22
      = shapeCast S4x2048x4096 (Blocks.Y (Blocks.X m c) (Blocks.W m c) (Blocks.B m c)) shapeCasts_S8192x4096_S4x2048x4096 := by
  unfold Pipeline.afterTail₀
  show StableHlo.after hostOps1 _ (Proc.devRef .tc main_v22) = _
  after_results
  have hw : Pipeline.withArrays (cfgs 0).spec c (V0 m c) (fun w => (dats m 0 c).arrAt w (cfgs 0).N)
      (Proc.devRef .tc main_v21) = Blocks.Y (Blocks.X m c) (Blocks.W m c) (Blocks.B m c) :=
    (Pipeline.withArrays_arr spec0 launch0.win.arr_inj c _ _ 3).trans (Blocks.final m c)
  exact congrArg (fun a => shapeCast S4x2048x4096 a shapeCasts_S8192x4096_S4x2048x4096) hw

/-- The input and the bias as launched, as plain arrays of extended reals. -/
abbrev xin (c : Dev nD) : S4x2048x4096.Idx → EReal := m ((c.tc : Thread nD τ).loc main_arg0)
abbrev bin (c : Dev nD) : S4096.Idx → EReal := m ((c.tc : Thread nD τ).loc main_arg4)

/-- Un-flattened, the region's output array is the specification's function of the input, the weight matrix the
    region found, and the bias: row `2048·b + s` of the flattened input is the input's row (b, s), the bias row is
    the bias, and the two half sums with their leading zero are the whole sum. -/
theorem result_eq (c : Dev nD) :
    shapeCast S4x2048x4096 (Blocks.Y (Blocks.X m c) (Blocks.W m c) (Blocks.B m c)) shapeCasts_S8192x4096_S4x2048x4096
      = Cert.Linear.G (m ((c.tc : Thread nD τ).loc main_arg0)) (V m c main_v17) (m ((c.tc : Thread nD τ).loc main_arg4)) := by
  funext i
  obtain ⟨b, s, o, rfl⟩ : ∃ (b : Fin 4) (s : Fin 2048) (o : Fin 4096), i = ix3 b s o := ⟨i 0, i 1, i 2, eq_ix3 i⟩
  rw [HostWindows.unflatten_apply]
  have hr : 2048 * b.val + s.val < 8192 := by have := b.isLt; have := s.isLt; omega
  have hx : ∀ kk : Fin 4096, Blocks.X m c (ix2 (⟨2048 * b.val + s.val, hr⟩ : Fin 8192) kk) = xin m c (ix3 b s kk) :=
    fun kk => HostWindows.x_apply m c b s kk
  have hb : Blocks.B m c (ix2 (0 : Fin 1) o) = bin m c (ix1 o) := HostWindows.bias_apply m c o
  show ((0 + ∑ k : Fin 2048, Blocks.X m c (ix2 (⟨2048 * b.val + s.val, hr⟩ : Fin 8192) (lo k)) * Blocks.W m c (ix2 o (lo k)))
      + ∑ k : Fin 2048, Blocks.X m c (ix2 (⟨2048 * b.val + s.val, hr⟩ : Fin 8192) (hi k)) * Blocks.W m c (ix2 o (hi k)))
      + Blocks.B m c (ix2 (0 : Fin 1) o)
    = (∑ k : Fin 4096, xin m c (ix3 b s k) * Blocks.W m c (ix2 o k)) + bin m c (ix1 o)
  rw [hb]
  refine congrArg (· + bin m c (ix1 o)) ?_
  refine Eq.trans ?_ (Cert.Linear.sum_halves (fun k => xin m c (ix3 b s k) * Blocks.W m c (ix2 o k))).symm
  refine congrArg₂ (· + ·) (congrArg (0 + ·) (Finset.sum_congr rfl fun k _ => ?_)) (Finset.sum_congr rfl fun k _ => ?_)
  · exact congrArg (· * Blocks.W m c (ix2 o (lo k))) (hx (lo k))
  · exact congrArg (· * Blocks.W m c (ix2 o (hi k))) (hx (hi k))

/-- THE KERNEL'S RUN, READ: every weakly fair execution ends with the result buffer at the specification's function
    of the input, the weight matrix the region found and the bias, and with every argument array unchanged. -/
theorem run : θ_run defs (onTc (τ := τ) (main (F := Ideal))) ⟨m, fun _ => 0, ρ⟩ (fun r => ∀ c : Dev nD,
      r.2.mem ((c.tc : Thread nD τ).loc main_v22) = Cert.Linear.G (m ((c.tc : Thread nD τ).loc main_arg0)) (V m c main_v17) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v22 (Pipeline.mem_restRefs_of main_v22 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.RunValue

end
-- ==== Proof.lean ====
/-
  The kernel computes a linear layer `y = x · Wᵀ + b` whose weight matrix is first assembled on the host — a clipped,
  noise-perturbed quantised part joined to an unquantised part, its columns then taken at an index vector — and whose
  product runs in one tiled region: an 8 × 4 × 2 grid of [1024, 1024] output blocks, the contraction axis in two halves
  of 2048, a running block kept across the two halves and the bias added with the second. The reference assembles the
  same matrix and computes `einsum('bsi,oi->bso') + b` in one piece.

  The two programs differ in how they take the columns: the reference gathers at the wrapped index (an out-of-range
  index is clamped), the kernel gathers the same way and then overwrites with a not-a-number pattern every column
  whose wrapped index is outside [0, 4095]. The precondition says every index lies in [-4096, 4096), where the
  reference itself indexes inside its array; there the kernel's overwrite never happens and the two weight matrices
  are one (KernelWeights).

  With one weight matrix W on both sides, over the extended reals:
    * the reference's result is `(Σ_{k<4096} x[b,s,k]·W[o,k]) + bias[o]` (RefSide, over the generated run);
    * the kernel's region leaves `((0 + Σ_{k<2048} …) + Σ_{2048≤k<4096} …) + bias` at row `2048·b + s`, column `o`
      of its output array (KernelPieces: what one body run stores; KernelBlocks: what each block written back holds,
      and that the blocks cover the array), which the last host operation un-flattens (KernelRun);
    * a sum over 4096 positions is the sum of its two halves, and a leading zero adds nothing (Spec) — addition of
      extended reals is associative and commutative, so no finiteness is needed, and the narrowing of both matrix
      operands to bf16 is the identity on extended reals.
  The three frames are the generated ones (the reference's is its generated run with the result dropped); the
  idealization rewrote nothing, so `preserves` is trivial.
-/
import proofs.«416216_j38482906972841_1_alg».proof.Defs
import proofs.«416216_j38482906972841_1_alg».proof.Proof.Gen.Kernel
import proofs.«416216_j38482906972841_1_alg».proof.Proof.Gen.Kernel.Frame
import proofs.«416216_j38482906972841_1_alg».proof.Proof.Gen.KernelIdeal
import proofs.«416216_j38482906972841_1_alg».proof.Proof.Gen.KernelIdeal.Frame
import proofs.«416216_j38482906972841_1_alg».proof.Proof.Gen.ReferenceIdeal
import proofs.«416216_j38482906972841_1_alg».proof.Proof.Gen.ReferenceIdeal.Run
import proofs.«416216_j38482906972841_1_alg».proof.Proof.Gen.ReferenceIdeal.Read
import proofs.«416216_j38482906972841_1_alg».proof.Proof.Gen.Pre_finite_inputs
import proofs.«416216_j38482906972841_1_alg».proof.Proof.Spec
import proofs.«416216_j38482906972841_1_alg».proof.Proof.RefSide
import proofs.«416216_j38482906972841_1_alg».proof.Proof.KernelWeights
import proofs.«416216_j38482906972841_1_alg».proof.Proof.KernelRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end at the specification's function of the input, ONE weight matrix and the bias: the kernel by
    its run read back, the reference by its run, whose gathered weight matrix is the kernel's under the precondition. -/
theorem algebraic : Cert.algebraic_KernelIdeal_ReferenceIdeal := by
  intro m ρ m' ρ' hpre hagree
  refine ⟨fun c => Cert.Linear.G (m ((c.tc : Thread Cert.KernelIdeal.nD Cert.KernelIdeal.τ).loc Cert.KernelIdeal.main_arg0)) (Cert.KernelIdeal.Gen.V m c Cert.KernelIdeal.main_v17)
      (m ((c.tc : Thread Cert.KernelIdeal.nD Cert.KernelIdeal.τ).loc Cert.KernelIdeal.main_arg4)), Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  refine (Cert.ReferenceIdeal.Read.val_main_v26_eq _ _ _ _ _ _ _).trans ?_
  rw [Cert.ReferenceIdeal.RefValue.result_eq, a0, a1, a2, a3, a4, a5, a6,
    ← Cert.KernelIdeal.Weights.weights_eq m hpre c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
